-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S16x64 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S16x64 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S10000x64 : Shape := ⟨2, ![10000, 64]⟩
abbrev S1x16 : Shape := ⟨2, ![1, 16]⟩
abbrev S100000x16 : Shape := ⟨2, ![100000, 16]⟩
abbrev S10000x16 : Shape := ⟨2, ![10000, 16]⟩
abbrev S64x16 : Shape := ⟨2, ![64, 16]⟩

abbrev nBuf : Space → Nat
  | .hbm => 120
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S16x64, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000, .i32⟩
  | .hbm, ⟨66, _⟩ => ⟨S1700000, .i32⟩
  | .hbm, ⟨67, _⟩ => ⟨S1700000, .i32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S1700000, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x64, .f32⟩
  | .hbm, ⟨109, _⟩ => ⟨S1700000x1, .f32⟩
  | .hbm, ⟨110, _⟩ => ⟨S1700000x64, .f32⟩
  | .hbm, ⟨111, _⟩ => ⟨S1700000x64, .f32⟩
  | .hbm, ⟨112, _⟩ => ⟨S_, .f32⟩
  | .hbm, ⟨113, _⟩ => ⟨S100000x64, .f32⟩
  | .hbm, ⟨114, _⟩ => ⟨S1700000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S1x16, .f32⟩
  | .hbm, ⟨119, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S16x64, .f32⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_15 : Ref sig .tc := ⟨.hbm, 90, rfl⟩
abbrev main_v65 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_17 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v43) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v85) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v87) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S64x16 : Shape := ⟨2, ![64, 16]⟩
abbrev S100000x16 : Shape := ⟨2, ![100000, 16]⟩
abbrev S1x16 : Shape := ⟨2, ![1, 16]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S16x64, .f32⟩
  | 7 => ⟨S16, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S64x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S64x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S64x16, .f32⟩
  | 3 => ⟨S100000x16, .f32⟩
  | 4 => ⟨S1x16, .f32⟩
  | 5 => ⟨S100000x16, .f32⟩
  | 6 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call3_cst : Ref sig .tc := ⟨.hbm, 127, rfl⟩
abbrev main_call3_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The mathematics this certificate is about, stated once for both programs.

  A graph on 100000 nodes is given by 1600000 directed edges (a list of source nodes and a list of target nodes). One round of
  symmetric-normalised propagation sends, along every edge and along one extra self loop per node, the source node's row of
  features scaled by `deg(source)^(-1/2) · deg(target)^(-1/2)` and adds what arrives at each target node, `deg` counting the
  edges (self loop included) that arrive at a node. Both programs compute a round with the same host operations — two gathers
  and a scatter-add whose order of accumulation is not ours to open — so a round is kept here as ONE function `propagate` of
  the feature rows and the two endpoint lists, and never unfolded: equal inputs give equal outputs.

  Between the rounds stand dense layers. Over the extended reals a dense layer is, entry by entry,
  `(X · Wᵀ + b)[p, q] = Σ_k X[p, k] · W[q, k] + b[q]`, and a rectified one takes the maximum of that with zero. The
  network is  dense₃ ∘ relu ∘ dense₂ ∘ propagate ∘ relu ∘ dense₁ ∘ propagate.
-/
import proofs.«180884_j61538291417128_1_alg».proof.KernelIdeal
import Idealize.ShloMosaic.PureOps.Ideal
import Idealize.ShloMosaic.Lib.ValueIdx

noncomputable section

namespace Cert.Sgc

open Idealize.ShloMosaic Idealize.ShloMosaic.TcCoe Idealize.ShloMosaic.ValueIdx Cert.KernelIdeal

/-! ## One round of propagation, as a function of the rows and the two endpoint lists -/

section Propagate

variable {F : FTy → Type} [FloatOps F] [Cert.KernelIdeal.Facts]
open Cert.KernelIdeal.Facts₀ Cert.KernelIdeal.Facts

/-- Row `r` (0: sources, 1: targets) of the 2 × 1600000 edge table, as a list of 1600000 node numbers. -/
def endpoints0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def endpoints1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A list of edge endpoints followed by the nodes 0, 1, …, 99999 themselves: one self loop per node. -/
def withLoops (a : (⟨S1600000, .i32⟩ : BufTy).Contents (Elt F)) : (⟨S1700000, .i32⟩ : BufTy).Contents (Elt F) :=
  concatenate S1700000 0 [⟨S1600000, a⟩, ⟨S100000, iotaInDim S100000 32 0⟩] concatenates_S1600000_S100000_S1700000_d0

/-- A negative node number counts from the end: `v < 0` reads as `v + 100000`. -/
def fromEnd (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- How many of the listed endpoints arrive at each node: ones added at the targets, from zero. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- `deg^(-1/2)` where the degree is positive, zero elsewhere. -/
def invSqrtDegree (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32)))
    (Host.rsqrt (degree d)) (broadcastInDim S100000 ![] bcast_S_S100000 (constant S_ .f32 0x00000000#32))

/-- The weight of each listed edge: `deg(source)^(-1/2) · deg(target)^(-1/2)`. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDegree d) (broadcastInDim S1700000x1 ![0] bcast_S1700000_S1700000x1_0 (fromEnd s)))
    (Host.gather gather_S100000_S1700000x1_S1700000_n_0_n_n_0_1_1 (invSqrtDegree d) (broadcastInDim S1700000x1 ![0] bcast_S1700000_S1700000x1_0 (fromEnd d)))

/-- One round over listed edges `s → d` (self loops already appended): each edge carries its source's row times the edge's
    weight, and the rows arriving at a node are added up from zero. -/
def propagateEdges (h : (⟨S100000x64, .f32⟩ : BufTy).Contents (Elt F)) (s d : (⟨S1700000, .i32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (fromEnd s)))
      (broadcastInDim S1700000x64 ![0, 1] bcast_S1700000x1_S1700000x64_0_1 (broadcastInDim S1700000x1 ![0] bcast_S1700000_S1700000x1_0 (edgeWeight s d))))

/-- One round of propagation over the graph's own edge lists `a → b`. -/
def propagate (h : (⟨S100000x64, .f32⟩ : BufTy).Contents (Elt F)) (a b : (⟨S1600000, .i32⟩ : BufTy).Contents (Elt F)) :
    (⟨S100000x64, .f32⟩ : BufTy).Contents (Elt F) :=
  propagateEdges h (withLoops a) (withLoops b)

end Propagate

/-! ## The dense layers, entry by entry over the extended reals -/

/-- `(X · Wᵀ + b)[p, q] = Σ_k X[p, k] · W[q, k] + b[q]`: a layer of `O` outputs on rows of 64 features. -/
def dense {O : ℕ} (X : FVec Ideal ⟨2, ![100000, 64]⟩ .f32) (W : FVec Ideal ⟨2, ![O, 64]⟩ .f32) (b : FVec Ideal ⟨1, ![O]⟩ .f32) :
    FVec Ideal ⟨2, ![100000, O]⟩ .f32 :=
  fun i => (∑ k : Fin 64, X (ix2 ⟨(i 0).val, idx2_lt0 i⟩ k) * W (ix2 ⟨(i 1).val, idx2_lt1 i⟩ k)) + b (ix1 ⟨(i 1).val, idx2_lt1 i⟩)

/-- The one row of a one-row matrix, as a vector: how a kernel is handed its bias. -/
def theRow {O : ℕ} (B : FVec Ideal ⟨2, ![1, O]⟩ .f32) : FVec Ideal ⟨1, ![O]⟩ .f32 := fun j => B (ix2 (0 : Fin 1) ⟨(j 0).val, (j 0).isLt⟩)

/-- The rectifier, entry by entry: the larger of the entry and zero (zero as the f32 word both programs print). -/
def relu {S : Shape} (Y : FVec Ideal S .f32) : FVec Ideal S .f32 := fun i => max (Y i) (Ideal.ofBits .f32 0x00000000#32)

/-- The whole network on the eight inputs. -/
def network [Cert.KernelIdeal.Facts] (x : FVec Ideal ⟨2, ![100000, 64]⟩ .f32) (e : (⟨S2x1600000, .i32⟩ : BufTy).Contents (Elt Ideal))
    (W1 : FVec Ideal ⟨2, ![64, 64]⟩ .f32) (b1 : FVec Ideal ⟨1, ![64]⟩ .f32) (W2 : FVec Ideal ⟨2, ![64, 64]⟩ .f32) (b2 : FVec Ideal ⟨1, ![64]⟩ .f32)
    (W3 : FVec Ideal ⟨2, ![16, 64]⟩ .f32) (b3 : FVec Ideal ⟨1, ![16]⟩ .f32) : FVec Ideal ⟨2, ![100000, 16]⟩ .f32 :=
  dense (relu (dense (propagate (relu (dense (propagate x (endpoints0 e) (endpoints1 e)) W1 b1)) (endpoints0 e) (endpoints1 e)) W2 b2)) W3 b3

end Cert.Sgc

end
-- ==== Proof.HostChain.lean ====
/-
  The host operations between the kernels, read as functions.

  The program's host stretches are folds of single-assignment operations over the buffers' contents. Read at the buffer a
  stretch computes, from ANY contents `W` it starts at, each stretch is a function of the few buffers it reads: the stretch
  before the first kernel is one round of propagation of the input rows over the edge table's two rows (and it leaves those
  two rows, as lists, in buffers the second round reads again); the stretch before the second kernel is one round of
  propagation of the first kernel's result over the same two lists; each stretch also lays a bias vector out as a one-row
  matrix, and touches nothing else.
-/
import proofs.«180884_j61538291417128_1_alg».proof.Proof.Gen.KernelIdeal.Launch
import proofs.«180884_j61538291417128_1_alg».proof.Proof.Spec
import Idealize.ShloMosaic.Lib.StableHlo.Run

set_option maxRecDepth 16384

noncomputable section

namespace Cert.Sgc

open Idealize.ShloMosaic Idealize.ShloMosaic.TcCoe Idealize.ShloMosaic.StableHlo Idealize.SL.Sem Cert.KernelIdeal Cert.KernelIdeal.Gen
open Cert.KernelIdeal.Facts₀ Cert.KernelIdeal.Facts

variable {F : FTy → Type} [FloatOps F]

/-- The contents after the three stretches before the first kernel, from `W`. -/
abbrev afterFirst (W : Valuation τ sig (Elt F)) : Valuation τ sig (Elt F) :=
  StableHlo.after hostOps0_2 (StableHlo.after hostOps0_1 (StableHlo.after hostOps0 W))

/-- The contents after the three stretches between the first and the second kernel, from `W`. -/
abbrev afterSecond (W : Valuation τ sig (Elt F)) : Valuation τ sig (Elt F) :=
  StableHlo.after hostOps1_2 (StableHlo.after hostOps1_1 (StableHlo.after hostOps1 W))

set_option maxHeartbeats 4000000 in
/-- The first kernel's row operand is one round of propagation of the input rows over the edge table. -/
theorem afterFirst_rows (W : Valuation τ sig (Elt F)) :
    afterFirst W (Proc.devRef .tc main_v43)
      = propagate (W (Proc.devRef .tc main_arg0)) (endpoints0 (W (Proc.devRef .tc main_arg1))) (endpoints1 (W (Proc.devRef .tc main_arg1))) := by
  simp only [afterFirst, hostOps0, hostOps0_1, hostOps0_2]
  after_results_simp
  rfl

/-- …and it leaves the edge table's two rows, as lists, where the second round reads them. -/
theorem afterFirst_sources (W : Valuation τ sig (Elt F)) :
    afterFirst W (Proc.devRef .tc main_v1) = endpoints0 (W (Proc.devRef .tc main_arg1)) := by
  simp only [afterFirst, hostOps0, hostOps0_1, hostOps0_2]
  after_results_simp
  rfl
theorem afterFirst_targets (W : Valuation τ sig (Elt F)) :
    afterFirst W (Proc.devRef .tc main_v3) = endpoints1 (W (Proc.devRef .tc main_arg1)) := by
  simp only [afterFirst, hostOps0, hostOps0_1, hostOps0_2]
  after_results_simp
  rfl
/-- The first bias, laid out as a one-row matrix. -/
theorem afterFirst_bias (W : Valuation τ sig (Elt F)) :
    afterFirst W (Proc.devRef .tc main_v44) = shapeCast _ (W (Proc.devRef .tc main_arg3)) Facts₀.shapeCasts_S64_S1x64 := by
  simp only [afterFirst, hostOps0, hostOps0_1, hostOps0_2]
  after_results_simp
  rfl
/-- No argument is written by these stretches. -/
theorem afterFirst_arg2 (W : Valuation τ sig (Elt F)) : afterFirst W (Proc.devRef .tc main_arg2) = W (Proc.devRef .tc main_arg2) := by
  simp only [afterFirst, hostOps0, hostOps0_1, hostOps0_2]
  after_results_simp
theorem afterFirst_arg4 (W : Valuation τ sig (Elt F)) : afterFirst W (Proc.devRef .tc main_arg4) = W (Proc.devRef .tc main_arg4) := by
  simp only [afterFirst, hostOps0, hostOps0_1, hostOps0_2]
  after_results_simp
theorem afterFirst_arg5 (W : Valuation τ sig (Elt F)) : afterFirst W (Proc.devRef .tc main_arg5) = W (Proc.devRef .tc main_arg5) := by
  simp only [afterFirst, hostOps0, hostOps0_1, hostOps0_2]
  after_results_simp
theorem afterFirst_arg6 (W : Valuation τ sig (Elt F)) : afterFirst W (Proc.devRef .tc main_arg6) = W (Proc.devRef .tc main_arg6) := by
  simp only [afterFirst, hostOps0, hostOps0_1, hostOps0_2]
  after_results_simp
theorem afterFirst_arg7 (W : Valuation τ sig (Elt F)) : afterFirst W (Proc.devRef .tc main_arg7) = W (Proc.devRef .tc main_arg7) := by
  simp only [afterFirst, hostOps0, hostOps0_1, hostOps0_2]
  after_results_simp

set_option maxHeartbeats 4000000 in
/-- The second kernel's row operand is one round of propagation of the first kernel's result over the same two lists. -/
theorem afterSecond_rows (W : Valuation τ sig (Elt F)) :
    afterSecond W (Proc.devRef .tc main_v85)
      = propagate (W (Proc.devRef .tc main_v45)) (W (Proc.devRef .tc main_v1)) (W (Proc.devRef .tc main_v3)) := by
  simp only [afterSecond, hostOps1, hostOps1_1, hostOps1_2]
  after_results_simp
  rfl
/-- The second bias, laid out as a one-row matrix. -/
theorem afterSecond_bias (W : Valuation τ sig (Elt F)) :
    afterSecond W (Proc.devRef .tc main_v86) = shapeCast _ (W (Proc.devRef .tc main_arg5)) Facts₀.shapeCasts_S64_S1x64 := by
  simp only [afterSecond, hostOps1, hostOps1_1, hostOps1_2]
  after_results_simp
  rfl
theorem afterSecond_arg4 (W : Valuation τ sig (Elt F)) : afterSecond W (Proc.devRef .tc main_arg4) = W (Proc.devRef .tc main_arg4) := by
  simp only [afterSecond, hostOps1, hostOps1_1, hostOps1_2]
  after_results_simp
theorem afterSecond_arg6 (W : Valuation τ sig (Elt F)) : afterSecond W (Proc.devRef .tc main_arg6) = W (Proc.devRef .tc main_arg6) := by
  simp only [afterSecond, hostOps1, hostOps1_1, hostOps1_2]
  after_results_simp
theorem afterSecond_arg7 (W : Valuation τ sig (Elt F)) : afterSecond W (Proc.devRef .tc main_arg7) = W (Proc.devRef .tc main_arg7) := by
  simp only [afterSecond, hostOps1, hostOps1_1, hostOps1_2]
  after_results_simp

/-- The stretch before the third kernel lays the third bias out as a one-row matrix and touches nothing else. -/
theorem afterThird_bias (W : Valuation τ sig (Elt F)) :
    StableHlo.after hostOps2 W (Proc.devRef .tc main_v88) = shapeCast _ (W (Proc.devRef .tc main_arg7)) Facts₀.shapeCasts_S16_S1x16 := by
  simp only [hostOps2]
  after_results_simp
  rfl
theorem afterThird_rows (W : Valuation τ sig (Elt F)) :
    StableHlo.after hostOps2 W (Proc.devRef .tc main_v87) = W (Proc.devRef .tc main_v87) := by
  simp only [hostOps2]
  after_results_simp
theorem afterThird_arg6 (W : Valuation τ sig (Elt F)) :
    StableHlo.after hostOps2 W (Proc.devRef .tc main_arg6) = W (Proc.devRef .tc main_arg6) := by
  simp only [hostOps2]
  after_results_simp

end Cert.Sgc

end
-- ==== Proof.Payload.lean ====
/-
  What a kernel body stores, entry by entry.

  Each of the three bodies loads a 10000 × 64 block of rows, the whole weight matrix (O × 64, O = 64 or 16) and the bias as a
  one-row matrix, and stores ONE value over its whole output block: the block times the transposed weight (accumulated from
  zero), plus the bias row repeated down the block, and — in the first two bodies — the maximum of that with zero. Over the
  extended reals the narrowing of the operands to bf16 is the identity, the product with a transposed matrix reads the
  weight at `[q, k]`, and the stored entry `(p, q)` is `Σ_k x[p, k] · w[q, k] + b[0, q]`, rectified or not.
-/
import proofs.«180884_j61538291417128_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Sgc

open Idealize.ShloMosaic Idealize.ShloMosaic.TcCoe Idealize.ShloMosaic.ValueIdx Cert.KernelIdeal Cert.KernelIdeal.Gen
open Cert.KernelIdeal.Facts₀ Cert.KernelIdeal.Facts

/-! ### The block product with `64` outputs -/

theorem lhs64_0 (i : S10000x64.Idx) (κ : dot_S10000x64_S64x64_S10000x64_1_0_0_1_n_n.contr.Idx) : (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (κ : dot_S10000x64_S64x64_S10000x64_1_0_0_1_n_n.contr.Idx) : (dot_S10000x64_S64x64_S10000x64_1_0_0_1_n_n.lhsIdx i κ 1).val = (κ ⟨0, by decide⟩).val :=
  dot_S10000x64_S64x64_S10000x64_1_0_0_1_n_n.lhsIdx_val_of_single rfl i κ
theorem rhs64_0 (i : S10000x64.Idx) (κ : dot_S10000x64_S64x64_S10000x64_1_0_0_1_n_n.contr.Idx) : (dot_S10000x64_S64x64_S10000x64_1_0_0_1_n_n.rhsIdx i κ 0).val = (κ ⟨0, by decide⟩).val :=
  dot_S10000x64_S64x64_S10000x64_1_0_0_1_n_n.rhsIdx_val_of_single rfl i κ
theorem rhs64_1 (i : S10000x64.Idx) (κ : dot_S10000x64_S64x64_S10000x64_1_0_0_1_n_n.contr.Idx) : (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000 × 64 block times a 64 × 64 matrix, into zero: entry `(p, q)` is `Σ_k l[p, k] · r[k, q]`. -/
theorem blockProduct64_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q) = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### The block product with `16` outputs -/

theorem lhs16_0 (i : S10000x16.Idx) (κ : dot_S10000x64_S64x16_S10000x16_1_0_0_1_n_n.contr.Idx) : (dot_S10000x64_S64x16_S10000x16_1_0_0_1_n_n.lhsIdx i κ 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs16_1 (i : S10000x16.Idx) (κ : dot_S10000x64_S64x16_S10000x16_1_0_0_1_n_n.contr.Idx) : (dot_S10000x64_S64x16_S10000x16_1_0_0_1_n_n.lhsIdx i κ 1).val = (κ ⟨0, by decide⟩).val :=
  dot_S10000x64_S64x16_S10000x16_1_0_0_1_n_n.lhsIdx_val_of_single rfl i κ
theorem rhs16_0 (i : S10000x16.Idx) (κ : dot_S10000x64_S64x16_S10000x16_1_0_0_1_n_n.contr.Idx) : (dot_S10000x64_S64x16_S10000x16_1_0_0_1_n_n.rhsIdx i κ 0).val = (κ ⟨0, by decide⟩).val :=
  dot_S10000x64_S64x16_S10000x16_1_0_0_1_n_n.rhsIdx_val_of_single rfl i κ
theorem rhs16_1 (i : S10000x16.Idx) (κ : dot_S10000x64_S64x16_S10000x16_1_0_0_1_n_n.contr.Idx) : (dot_S10000x64_S64x16_S10000x16_1_0_0_1_n_n.rhsIdx i κ 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- A 10000 × 64 block times a 64 × 16 matrix, into zero: entry `(p, q)` is `Σ_k l[p, k] · r[k, q]`. -/
theorem blockProduct16_apply {φ₁ φ₂ : FTy} (l : FVec Ideal S10000x64 φ₁) (r : FVec Ideal S64x16 φ₂) (p : Fin 10000) (q : Fin 16) :
    matmul dot_S10000x64_S64x16_S10000x16_1_0_0_1_n_n none l r (constant S10000x16 .f32 0x00000000#32) (ix2 p q) = ∑ k : Fin 64, l (ix2 p k) * r (ix2 k q) := by
  simp only [matmul]
  rw [Ideal.matmul_constant_zero_apply, ← Equiv.sum_comp (contrEquiv1 dot_S10000x64_S64x16_S10000x16_1_0_0_1_n_n 64 rfl rfl).symm]
  refine Finset.sum_congr rfl fun k _ => ?_
  have hk := contrEquiv1_symm_val dot_S10000x64_S64x16_S10000x16_1_0_0_1_n_n 64 rfl rfl k
  have el : dot_S10000x64_S64x16_S10000x16_1_0_0_1_n_n.lhsIdx (ix2 p q) ((contrEquiv1 dot_S10000x64_S64x16_S10000x16_1_0_0_1_n_n 64 rfl rfl).symm k) = ix2 p k := funext fun a => Fin.ext (by
    match a with
    | ⟨0, _⟩ => exact lhs16_0 _ _
    | ⟨1, _⟩ => exact (lhs16_1 _ _).trans hk)
  have er : dot_S10000x64_S64x16_S10000x16_1_0_0_1_n_n.rhsIdx (ix2 p q) ((contrEquiv1 dot_S10000x64_S64x16_S10000x16_1_0_0_1_n_n 64 rfl rfl).symm k) = ix2 k q := funext fun a => Fin.ext (by
    match a with
    | ⟨0, _⟩ => exact (rhs16_0 _ _).trans hk
    | ⟨1, _⟩ => exact rhs16_1 _ _)
  rw [el, er]

/-! ### The three stored values -/

/-- The first body's stored entry. -/
theorem stored0_apply (x : Vec Ideal S10000x64 .f32) (w : Vec Ideal S64x64 .f32) (b : Vec Ideal S1x64 .f32) (p : Fin 10000) (q : Fin 64) :
    k0_pay1 x w b (ix2 p q)
      = max ((∑ k : Fin 64, x (ix2 p k) * w (ix2 q k)) + b (ix2 (0 : Fin 1) q)) (Ideal.ofBits .f32 0x00000000#32) := by
  unfold k0_pay1
  rw [maximumf_apply, addf_apply, broadcast_apply, blockProduct64_apply, broadcastTo_1b_ab_apply, shapeCast_self, shapeCast_self]
  refine congrArg₂ max (congrArg₂ (· + ·) (Finset.sum_congr rfl fun k _ => ?_) rfl) rfl
  rw [truncf_apply, transpose_ix2_apply, truncf_apply]

/-- The second body stores the same function of its three loads as the first. -/
theorem stored1_apply (x : Vec Ideal S10000x64 .f32) (w : Vec Ideal S64x64 .f32) (b : Vec Ideal S1x64 .f32) (p : Fin 10000) (q : Fin 64) :
    k1_pay1 x w b (ix2 p q)
      = max ((∑ k : Fin 64, x (ix2 p k) * w (ix2 q k)) + b (ix2 (0 : Fin 1) q)) (Ideal.ofBits .f32 0x00000000#32) :=
  stored0_apply x w b p q

/-- The third body's stored entry: 16 outputs, and no rectifier. -/
theorem stored2_apply (x : Vec Ideal S10000x64 .f32) (w : Vec Ideal S16x64 .f32) (b : Vec Ideal S1x16 .f32) (p : Fin 10000) (q : Fin 16) :
    k2_pay1 x w b (ix2 p q) = (∑ k : Fin 64, x (ix2 p k) * w (ix2 q k)) + b (ix2 (0 : Fin 1) q) := by
  unfold k2_pay1
  rw [addf_apply, blockProduct16_apply, broadcastTo_1b_ab_apply, shapeCast_self, shapeCast_self]
  refine congrArg₂ (· + ·) (Finset.sum_congr rfl fun k _ => ?_) rfl
  rw [truncf_apply, transpose_ix2_apply, truncf_apply]

end Cert.Sgc

end
-- ==== Proof.Region0.lean ====
/-
  What the first kernel leaves in its result array, as one function of the arrays it finds.

  The grid has ten points. Point `t` is handed rows `10000·t … 10000·t + 9999` of the row operand (all 64 columns), the whole
  weight matrix and the whole one-row bias, and writes back rows `10000·t … 10000·t + 9999` of the result. What it stores at
  `(p, q)` of its block is `max (Σ_k x[p, k] · w[q, k] + b[0, q]) 0` of its loads, which is entry `(10000·t + p, q)` of the
  rectified dense layer of the WHOLE operands: every block that is written back is that one function read through the
  block, and the ten blocks cover the result array, so the array ends holding the rectified dense layer.
  All of it at ANY contents `V` the region is entered with.
-/
import proofs.«180884_j61538291417128_1_alg».proof.Proof.Gen.KernelIdeal.Frame
import proofs.«180884_j61538291417128_1_alg».proof.Proof.Payload
import proofs.«180884_j61538291417128_1_alg».proof.Proof.Spec
import Idealize.ShloMosaic.Lib.Pipeline.Value

set_option maxRecDepth 16384

noncomputable section

namespace Cert.Sgc.Region0

open Idealize.ShloMosaic Idealize.ShloMosaic.TcCoe Idealize.ShloMosaic.ValueIdx Idealize.SL.Sem Cert.KernelIdeal Cert.KernelIdeal.Gen Cert.Sgc
open Idealize.ShloMosaic.Pipeline (Dat Cfg Window)

variable (V : (c : Dev nD) → (b : Ref sig .tc) → Buf (Elt Ideal) ((c : Thread nD τ).loc b))

/-- The three arrays the region reads, as it finds them, at their literal types. -/
abbrev rows (c : Dev nD) : FVec Ideal S100000x64 .f32 := V c main_v43
abbrev weight (c : Dev nD) : FVec Ideal S64x64 .f32 := V c main_arg2
abbrev biasRow (c : Dev nD) : FVec Ideal S1x64 .f32 := V c main_v44

theorem origin : (![0, 0] : Fin 2 → Nat) = fun _ => 0 := funext fun a => by fin_cases a <;> rfl

/-- The printed index maps over the grid: the row operand's block and the result's block sit at block row `t`, block column 0;
    the weight and the bias are always their one block. -/
theorem blockIndex : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every block row of the result is some point's. -/
theorem blockOnto : ∀ r : Fin 10, ∃ t : Fin cfg0.N, win0_3.index t = ![r.val, 0] :=
  (by decide +kernel : ∀ r : Fin 10, ∃ t : Fin grid0.N, win0_3.index t = ![r.val, 0])

/-- WHAT POINT `t` WRITES BACK is block `t` of the rectified dense layer of the arrays the region finds. -/
theorem writeBack (c : Dev nD) (t : Fin cfg0.N) :
    (dat0 V c).flushed 3 t = ((cfg0.win 3).blk t).view.read (Elt Ideal)
      (relu (dense (rows V c) (weight V c) (theRow (biasRow V c)))) := by
  show (cfg0.win 3).cut (grid0.coords t) ((dat0 V c).after 3 t) = _
  rw [after0_3]
  unfold out0_3
  rw [View.canon_unit_zero origin]
  simp only [View.ld_unit_zero (S := S10000x64) origin, View.ld_unit_zero (S := S64x64) origin, View.ld_unit_zero (S := S1x64) origin]
  obtain ⟨e00, e01, e10, e11, e20, e21, e31⟩ := blockIndex t
  funext j
  obtain ⟨p, q, rfl⟩ : ∃ (p : Fin 10000) (q : Fin 64), j = ix2 p q := ⟨j 0, j 1, eq_ix2 j⟩
  refine (stored0_apply (iblk0 V c 0 t) (iblk0 V c 1 t) (iblk0 V c 2 t) p q).trans ?_
  show max ((∑ k : Fin 64, rows V c (((cfg0.win 0).blk t).view.emb (ix2 p k)) * weight V c (((cfg0.win 1).blk t).view.emb (ix2 q k)))
        + biasRow V c (((cfg0.win 2).blk t).view.emb (ix2 (0 : Fin 1) q))) (Ideal.ofBits .f32 0x00000000#32)
      = relu (dense (rows V c) (weight V c) (theRow (biasRow V c))) (((cfg0.win 3).blk t).view.emb (ix2 p q))
  have hrow : ∀ k : Fin 64, ((cfg0.win 0).blk t).view.emb (ix2 p k)
      = ix2 ⟨((((cfg0.win 3).blk t).view.emb (ix2 p q)) 0).val, idx2_lt0 _⟩ k := fun k => by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have hweight : ∀ k : Fin 64, ((cfg0.win 1).blk t).view.emb (ix2 q k)
      = ix2 ⟨((((cfg0.win 3).blk t).view.emb (ix2 p q)) 1).val, idx2_lt1 _⟩ k := fun k => by
    funext a; apply Fin.ext
    match a with
    | ⟨0, _⟩ => show win0_1.index t (0 : Fin 2) * 64 + 1 * q.val = win0_3.index t (1 : Fin 2) * 64 + 1 * q.val; omega
    | ⟨1, _⟩ => show win0_1.index t (1 : Fin 2) * 64 + 1 * k.val = k.val; omega
  have hbias : ((cfg0.win 2).blk t).view.emb (ix2 (0 : Fin 1) q)
      = ix2 (0 : Fin 1) ⟨((((cfg0.win 3).blk t).view.emb (ix2 p q)) 1).val, idx2_lt1 _⟩ := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  unfold relu dense theRow
  refine congrArg₂ max (congrArg₂ (· + ·) (Finset.sum_congr rfl fun k _ => ?_) ?_) rfl
  · rw [hrow k, hweight k]
  · rw [hbias]

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v45).slice (win0_3.rect t)).set ↔ _
  rw [View.set_slice_whole, Rect.mem_set_unit]
  exact Iff.rfl

/-- The ten blocks cover the result array: row `r` lies in the block of point `r / 10000`. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := blockOnto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the region: the rectified dense layer of the arrays the region finds. -/
theorem value (c : Dev nD) :
    (dat0 V c).arrAt 3 cfg0.N = relu (dense (rows V c) (weight V c) (theRow (biasRow V c))) :=
  (dat0 V c).arrAt_eq_of_cover 3 _ (fun t _ => writeBack V c t) covered

end Cert.Sgc.Region0

end
-- ==== Proof.Region1.lean ====
/-
  What the second kernel leaves in its result array, as one function of the arrays it finds.

  The grid has ten points. Point `t` is handed rows `10000·t … 10000·t + 9999` of the row operand (all 64 columns), the whole
  weight matrix and the whole one-row bias, and writes back rows `10000·t … 10000·t + 9999` of the result. What it stores at
  `(p, q)` of its block is `max (Σ_k x[p, k] · w[q, k] + b[0, q]) 0` of its loads, which is entry `(10000·t + p, q)` of the
  rectified dense layer of the WHOLE operands: every block that is written back is that one function read through the
  block, and the ten blocks cover the result array, so the array ends holding the rectified dense layer.
  All of it at ANY contents `V` the region is entered with.
-/
import proofs.«180884_j61538291417128_1_alg».proof.Proof.Gen.KernelIdeal.Frame
import proofs.«180884_j61538291417128_1_alg».proof.Proof.Payload
import proofs.«180884_j61538291417128_1_alg».proof.Proof.Spec
import Idealize.ShloMosaic.Lib.Pipeline.Value

set_option maxRecDepth 16384

noncomputable section

namespace Cert.Sgc.Region1

open Idealize.ShloMosaic Idealize.ShloMosaic.TcCoe Idealize.ShloMosaic.ValueIdx Idealize.SL.Sem Cert.KernelIdeal Cert.KernelIdeal.Gen Cert.Sgc
open Idealize.ShloMosaic.Pipeline (Dat Cfg Window)

variable (V : (c : Dev nD) → (b : Ref sig .tc) → Buf (Elt Ideal) ((c : Thread nD τ).loc b))

/-- The three arrays the region reads, as it finds them, at their literal types. -/
abbrev rows (c : Dev nD) : FVec Ideal S100000x64 .f32 := V c main_v85
abbrev weight (c : Dev nD) : FVec Ideal S64x64 .f32 := V c main_arg4
abbrev biasRow (c : Dev nD) : FVec Ideal S1x64 .f32 := V c main_v86

theorem origin : (![0, 0] : Fin 2 → Nat) = fun _ => 0 := funext fun a => by fin_cases a <;> rfl

/-- The printed index maps over the grid: the row operand's block and the result's block sit at block row `t`, block column 0;
    the weight and the bias are always their one block. -/
theorem blockIndex : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every block row of the result is some point's. -/
theorem blockOnto : ∀ r : Fin 10, ∃ t : Fin cfg1.N, win1_3.index t = ![r.val, 0] :=
  (by decide +kernel : ∀ r : Fin 10, ∃ t : Fin grid1.N, win1_3.index t = ![r.val, 0])

/-- WHAT POINT `t` WRITES BACK is block `t` of the rectified dense layer of the arrays the region finds. -/
theorem writeBack (c : Dev nD) (t : Fin cfg1.N) :
    (dat1 V c).flushed 3 t = ((cfg1.win 3).blk t).view.read (Elt Ideal)
      (relu (dense (rows V c) (weight V c) (theRow (biasRow V c)))) := by
  show (cfg1.win 3).cut (grid1.coords t) ((dat1 V c).after 3 t) = _
  rw [after1_3]
  unfold out1_3
  rw [View.canon_unit_zero origin]
  simp only [View.ld_unit_zero (S := S10000x64) origin, View.ld_unit_zero (S := S64x64) origin, View.ld_unit_zero (S := S1x64) origin]
  obtain ⟨e00, e01, e10, e11, e20, e21, e31⟩ := blockIndex t
  funext j
  obtain ⟨p, q, rfl⟩ : ∃ (p : Fin 10000) (q : Fin 64), j = ix2 p q := ⟨j 0, j 1, eq_ix2 j⟩
  refine (stored1_apply (iblk1 V c 0 t) (iblk1 V c 1 t) (iblk1 V c 2 t) p q).trans ?_
  show max ((∑ k : Fin 64, rows V c (((cfg1.win 0).blk t).view.emb (ix2 p k)) * weight V c (((cfg1.win 1).blk t).view.emb (ix2 q k)))
        + biasRow V c (((cfg1.win 2).blk t).view.emb (ix2 (0 : Fin 1) q))) (Ideal.ofBits .f32 0x00000000#32)
      = relu (dense (rows V c) (weight V c) (theRow (biasRow V c))) (((cfg1.win 3).blk t).view.emb (ix2 p q))
  have hrow : ∀ k : Fin 64, ((cfg1.win 0).blk t).view.emb (ix2 p k)
      = ix2 ⟨((((cfg1.win 3).blk t).view.emb (ix2 p q)) 0).val, idx2_lt0 _⟩ k := fun k => by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have hweight : ∀ k : Fin 64, ((cfg1.win 1).blk t).view.emb (ix2 q k)
      = ix2 ⟨((((cfg1.win 3).blk t).view.emb (ix2 p q)) 1).val, idx2_lt1 _⟩ k := fun k => by
    funext a; apply Fin.ext
    match a with
    | ⟨0, _⟩ => show win1_1.index t (0 : Fin 2) * 64 + 1 * q.val = win1_3.index t (1 : Fin 2) * 64 + 1 * q.val; omega
    | ⟨1, _⟩ => show win1_1.index t (1 : Fin 2) * 64 + 1 * k.val = k.val; omega
  have hbias : ((cfg1.win 2).blk t).view.emb (ix2 (0 : Fin 1) q)
      = ix2 (0 : Fin 1) ⟨((((cfg1.win 3).blk t).view.emb (ix2 p q)) 1).val, idx2_lt1 _⟩ := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  unfold relu dense theRow
  refine congrArg₂ max (congrArg₂ (· + ·) (Finset.sum_congr rfl fun k _ => ?_) ?_) rfl
  · rw [hrow k, hweight k]
  · rw [hbias]

/-- An index of the result array is in point `t`'s block iff each coordinate is in the block's range on its axis. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v87).slice (win1_3.rect t)).set ↔ _
  rw [View.set_slice_whole, Rect.mem_set_unit]
  exact Iff.rfl

/-- The ten blocks cover the result array: row `r` lies in the block of point `r / 10000`. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := blockOnto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE RESULT ARRAY after the region: the rectified dense layer of the arrays the region finds. -/
theorem value (c : Dev nD) :
    (dat1 V c).arrAt 3 cfg1.N = relu (dense (rows V c) (weight V c) (theRow (biasRow V c))) :=
  (dat1 V c).arrAt_eq_of_cover 3 _ (fun t _ => writeBack V c t) covered

end Cert.Sgc.Region1

end
-- ==== Proof.Region2.lean ====
/-
  What the third kernel leaves in its result array, as one function of the arrays it finds.

  The grid has ten points. Point `t` is handed rows `10000·t … 10000·t + 9999` of the row operand (all 64 columns), the whole
  16 × 64 weight matrix and the whole one-row bias of 16 entries, and writes back rows `10000·t … 10000·t + 9999` of the
  100000 × 16 result. What it stores at `(p, q)` of its block is `Σ_k x[p, k] · w[q, k] + b[0, q]` of its loads — this
  body has no rectifier —, which is entry `(10000·t + p, q)` of the dense layer of the WHOLE operands: every block that
  is written back is that one function read through the block, and the ten blocks cover the result array, so the array
  ends holding the dense layer. All of it at ANY contents `V` the region is entered with.
-/
import proofs.«180884_j61538291417128_1_alg».proof.Proof.Gen.KernelIdeal.Frame
import proofs.«180884_j61538291417128_1_alg».proof.Proof.Payload
import proofs.«180884_j61538291417128_1_alg».proof.Proof.Spec
import Idealize.ShloMosaic.Lib.Pipeline.Value

set_option maxRecDepth 16384

noncomputable section

namespace Cert.Sgc.Region2

open Idealize.ShloMosaic Idealize.ShloMosaic.TcCoe Idealize.ShloMosaic.ValueIdx Idealize.SL.Sem Cert.KernelIdeal Cert.KernelIdeal.Gen Cert.Sgc
open Idealize.ShloMosaic.Pipeline (Dat Cfg Window)

variable (V : (c : Dev nD) → (b : Ref sig .tc) → Buf (Elt Ideal) ((c : Thread nD τ).loc b))

/-- The three arrays the region reads, as it finds them, at their literal types. -/
abbrev rows (c : Dev nD) : FVec Ideal S100000x64 .f32 := V c main_v87
abbrev weight (c : Dev nD) : FVec Ideal S16x64 .f32 := V c main_arg6
abbrev biasRow (c : Dev nD) : FVec Ideal S1x16 .f32 := V c main_v88

theorem origin : (![0, 0] : Fin 2 → Nat) = fun _ => 0 := funext fun a => by fin_cases a <;> rfl

/-- The printed index maps over the grid: the row operand's block and the result's block sit at block row `t`, block column 0;
    the weight and the bias are always their one block. -/
theorem blockIndex : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every block row of the result is some point's. -/
theorem blockOnto : ∀ r : Fin 10, ∃ t : Fin cfg2.N, win2_3.index t = ![r.val, 0] :=
  (by decide +kernel : ∀ r : Fin 10, ∃ t : Fin grid2.N, win2_3.index t = ![r.val, 0])

/-- WHAT POINT `t` WRITES BACK is block `t` of the dense layer of the arrays the region finds. -/
theorem writeBack (c : Dev nD) (t : Fin cfg2.N) :
    (dat2 V c).flushed 3 t = ((cfg2.win 3).blk t).view.read (Elt Ideal)
      (dense (rows V c) (weight V c) (theRow (biasRow V c))) := by
  show (cfg2.win 3).cut (grid2.coords t) ((dat2 V c).after 3 t) = _
  rw [after2_3]
  unfold out2_3
  rw [View.canon_unit_zero origin]
  simp only [View.ld_unit_zero (S := S10000x64) origin, View.ld_unit_zero (S := S16x64) origin, View.ld_unit_zero (S := S1x16) origin]
  obtain ⟨e00, e01, e10, e11, e20, e21, e31⟩ := blockIndex t
  funext j
  obtain ⟨p, q, rfl⟩ : ∃ (p : Fin 10000) (q : Fin 16), j = ix2 p q := ⟨j 0, j 1, eq_ix2 j⟩
  refine (stored2_apply (iblk2 V c 0 t) (iblk2 V c 1 t) (iblk2 V c 2 t) p q).trans ?_
  show (∑ k : Fin 64, rows V c (((cfg2.win 0).blk t).view.emb (ix2 p k)) * weight V c (((cfg2.win 1).blk t).view.emb (ix2 q k)))
        + biasRow V c (((cfg2.win 2).blk t).view.emb (ix2 (0 : Fin 1) q))
      = dense (rows V c) (weight V c) (theRow (biasRow V c)) (((cfg2.win 3).blk t).view.emb (ix2 p q))
  have hrow : ∀ k : Fin 64, ((cfg2.win 0).blk t).view.emb (ix2 p k)
      = ix2 ⟨((((cfg2.win 3).blk t).view.emb (ix2 p q)) 0).val, idx2_lt0 _⟩ k := fun k => by
    funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  have hweight : ∀ k : Fin 64, ((cfg2.win 1).blk t).view.emb (ix2 q k)
      = ix2 ⟨((((cfg2.win 3).blk t).view.emb (ix2 p q)) 1).val, idx2_lt1 _⟩ k := fun k => by
    funext a; apply Fin.ext
    match a with
    | ⟨0, _⟩ => show win2_1.index t (0 : Fin 2) * 16 + 1 * q.val = win2_3.index t (1 : Fin 2) * 16 + 1 * q.val; omega
    | ⟨1, _⟩ => show win2_1.index t (1 : Fin 2) * 64 + 1 * k.val = k.val; omega
  have hbias : ((cfg2.win 2).blk t).view.emb (ix2 (0 : Fin 1) q)
      = ix2 (0 : Fin 1) ⟨((((cfg2.win 3).blk t).view.emb (ix2 p q)) 1).val, idx2_lt1 _⟩ := by
    funext a; apply Fin.ext
    match a with
    | ⟨0, _⟩ => show win2_2.index t (0 : Fin 2) * 1 + 1 * 0 = 0; omega
    | ⟨1, _⟩ => show win2_2.index t (1 : Fin 2) * 16 + 1 * q.val = win2_3.index t (1 : Fin 2) * 16 + 1 * q.val; omega
  unfold dense theRow
  refine congrArg₂ (· + ·) (Finset.sum_congr rfl fun k _ => ?_) ?_
  · rw [hrow k, hweight k]
  · rw [hbias]

/-- An index of the result array is in point `t`'s block iff each coordinate is in the block's range on its axis. -/
theorem mem_block (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v89).slice (win2_3.rect t)).set ↔ _
  rw [View.set_slice_whole, Rect.mem_set_unit]
  exact Iff.rfl

/-- The ten blocks cover the result array: row `r` lies in the block of point `r / 10000`. -/
theorem covered (i : S100000x16.Idx) : ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := blockOnto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 16 ≤ (i 1).val ∧ (i 1).val < win2_3.index t (1 : Fin 2) * 16 + 16; omega

/-- THE RESULT ARRAY after the region: the dense layer of the arrays the region finds. -/
theorem value (c : Dev nD) :
    (dat2 V c).arrAt 3 cfg2.N = dense (rows V c) (weight V c) (theRow (biasRow V c)) :=
  (dat2 V c).arrAt_eq_of_cover 3 _ (fun t _ => writeBack V c t) covered

end Cert.Sgc.Region2

end
-- ==== Proof.Fold.lean ====
/-
  The kernel program's result, read back to its arguments.

  The program's run is a fold through its segments: three host stretches, the first kernel, three host stretches, the second
  kernel, one host stretch, the third kernel. The contents at each boundary are the previous boundary's, with the buffers a
  stretch computes at the stretch's functions, and with a kernel's result array at the kernel's value. Walking the fold back from
  the result buffer: the third kernel's value is the dense layer of the second kernel's result, which is the rectified dense
  layer of one round of propagation of the first kernel's result, which is the rectified dense layer of one round of propagation
  of the input rows — each weight, bias and edge list the argument it was launched with, since no stretch and no kernel writes
  an argument. A bias reaches its kernel laid out as a one-row matrix, whose one row is the bias again.
-/
import proofs.«180884_j61538291417128_1_alg».proof.Proof.Gen.KernelIdeal.Frame
import proofs.«180884_j61538291417128_1_alg».proof.Proof.HostChain
import proofs.«180884_j61538291417128_1_alg».proof.Proof.Region0
import proofs.«180884_j61538291417128_1_alg».proof.Proof.Region1
import proofs.«180884_j61538291417128_1_alg».proof.Proof.Region2
import Idealize.ShloMosaic.Lib.ValueLayout

set_option maxRecDepth 16384

noncomputable section

namespace Cert.Sgc

open Idealize.ShloMosaic Idealize.ShloMosaic.TcCoe Idealize.ShloMosaic.ValueIdx Idealize.SL.Sem Cert.KernelIdeal Cert.KernelIdeal.Gen
open Cert.KernelIdeal.Facts₀ Cert.KernelIdeal.Facts

/-- A vector laid out as a one-row matrix has that vector as its one row. -/
theorem theRow_shapeCast {O : ℕ} (b : FVec Ideal ⟨1, ![O]⟩ .f32) (h : (⟨1, ![O]⟩ : Shape).ShapeCasts ⟨2, ![1, O]⟩) :
    theRow (shapeCast ⟨2, ![1, O]⟩ b h) = b := by
  funext j
  obtain ⟨q, rfl⟩ : ∃ q : Fin O, j = ix1 q := ⟨j 0, eq_ix1 j⟩
  exact shapeCast_a_1a_apply b h 0 q

variable (m : (ℓ : Loc nD τ sig) → Buf (Elt Ideal) ℓ) (ρ : Dev nD → PrngReg)

/-! ## What the first kernel finds, and leaves -/

theorem rows0 (c : Dev nD) : Region0.rows (V3 m ρ) c
    = propagate (m ((c : Thread nD τ).loc main_arg0)) (endpoints0 (m ((c : Thread nD τ).loc main_arg1))) (endpoints1 (m ((c : Thread nD τ).loc main_arg1))) :=
  afterFirst_rows (W0 m ρ c)
theorem weight0 (c : Dev nD) : Region0.weight (V3 m ρ) c = (m ((c : Thread nD τ).loc main_arg2)) := afterFirst_arg2 (W0 m ρ c)
theorem bias0 (c : Dev nD) : Region0.biasRow (V3 m ρ) c = shapeCast _ (m ((c : Thread nD τ).loc main_arg3)) Facts₀.shapeCasts_S64_S1x64 :=
  afterFirst_bias (W0 m ρ c)

/-- The first layer's output, in the first kernel's result buffer at the region's exit. -/
theorem layer1 (c : Dev nD) : W4 m ρ c (Proc.devRef .tc main_v45)
    = relu (dense (propagate (m ((c : Thread nD τ).loc main_arg0)) (endpoints0 (m ((c : Thread nD τ).loc main_arg1))) (endpoints1 (m ((c : Thread nD τ).loc main_arg1)))) (m ((c : Thread nD τ).loc main_arg2)) (m ((c : Thread nD τ).loc main_arg3))) :=
  (W4_arr m ρ c 3).trans ((Region0.value (V3 m ρ) c).trans (by rw [rows0, weight0, bias0, theRow_shapeCast]))

/-! ## What the second kernel finds, and leaves -/

theorem rows1 (c : Dev nD) : Region1.rows (V7 m ρ) c
    = propagate (relu (dense (propagate (m ((c : Thread nD τ).loc main_arg0)) (endpoints0 (m ((c : Thread nD τ).loc main_arg1))) (endpoints1 (m ((c : Thread nD τ).loc main_arg1)))) (m ((c : Thread nD τ).loc main_arg2)) (m ((c : Thread nD τ).loc main_arg3))))
        (endpoints0 (m ((c : Thread nD τ).loc main_arg1))) (endpoints1 (m ((c : Thread nD τ).loc main_arg1))) := by
  have h1 : W4 m ρ c (Proc.devRef .tc main_v1) = endpoints0 (m ((c : Thread nD τ).loc main_arg1)) :=
    (W4_of_ne m ρ c main_v1 (by decide)).trans (afterFirst_sources (W0 m ρ c))
  have h3 : W4 m ρ c (Proc.devRef .tc main_v3) = endpoints1 (m ((c : Thread nD τ).loc main_arg1)) :=
    (W4_of_ne m ρ c main_v3 (by decide)).trans (afterFirst_targets (W0 m ρ c))
  exact (afterSecond_rows (W4 m ρ c)).trans (by rw [layer1, h1, h3])
theorem weight1 (c : Dev nD) : Region1.weight (V7 m ρ) c = (m ((c : Thread nD τ).loc main_arg4)) :=
  (afterSecond_arg4 (W4 m ρ c)).trans ((W4_of_ne m ρ c main_arg4 (by decide)).trans (afterFirst_arg4 (W0 m ρ c)))
theorem bias1 (c : Dev nD) : Region1.biasRow (V7 m ρ) c = shapeCast _ (m ((c : Thread nD τ).loc main_arg5)) Facts₀.shapeCasts_S64_S1x64 :=
  (afterSecond_bias (W4 m ρ c)).trans (congrArg (fun b => shapeCast _ b Facts₀.shapeCasts_S64_S1x64)
    ((W4_of_ne m ρ c main_arg5 (by decide)).trans (afterFirst_arg5 (W0 m ρ c))))

/-- The second layer's output, in the second kernel's result buffer at the region's exit. -/
theorem layer2 (c : Dev nD) : W8 m ρ c (Proc.devRef .tc main_v87)
    = relu (dense (propagate (relu (dense (propagate (m ((c : Thread nD τ).loc main_arg0)) (endpoints0 (m ((c : Thread nD τ).loc main_arg1))) (endpoints1 (m ((c : Thread nD τ).loc main_arg1)))) (m ((c : Thread nD τ).loc main_arg2)) (m ((c : Thread nD τ).loc main_arg3))))
        (endpoints0 (m ((c : Thread nD τ).loc main_arg1))) (endpoints1 (m ((c : Thread nD τ).loc main_arg1)))) (m ((c : Thread nD τ).loc main_arg4)) (m ((c : Thread nD τ).loc main_arg5))) :=
  (W8_arr m ρ c 3).trans ((Region1.value (V7 m ρ) c).trans (by rw [rows1, weight1, bias1, theRow_shapeCast]))

/-! ## What the third kernel finds, and leaves -/

theorem rows2 (c : Dev nD) : Region2.rows (V9 m ρ) c = W8 m ρ c (Proc.devRef .tc main_v87) := afterThird_rows (W8 m ρ c)
theorem weight2 (c : Dev nD) : Region2.weight (V9 m ρ) c = (m ((c : Thread nD τ).loc main_arg6)) :=
  (afterThird_arg6 (W8 m ρ c)).trans ((W8_of_ne m ρ c main_arg6 (by decide)).trans ((afterSecond_arg6 (W4 m ρ c)).trans
    ((W4_of_ne m ρ c main_arg6 (by decide)).trans (afterFirst_arg6 (W0 m ρ c)))))
theorem bias2 (c : Dev nD) : Region2.biasRow (V9 m ρ) c = shapeCast _ (m ((c : Thread nD τ).loc main_arg7)) Facts₀.shapeCasts_S16_S1x16 :=
  (afterThird_bias (W8 m ρ c)).trans (congrArg (fun b => shapeCast _ b Facts₀.shapeCasts_S16_S1x16)
    ((W8_of_ne m ρ c main_arg7 (by decide)).trans ((afterSecond_arg7 (W4 m ρ c)).trans
      ((W4_of_ne m ρ c main_arg7 (by decide)).trans (afterFirst_arg7 (W0 m ρ c))))))

/-- THE RESULT: at the last boundary the result buffer holds the network of the eight arguments. -/
theorem kernel_value (c : Dev nD) : W10 m ρ c (Proc.devRef .tc main_v89)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 3).trans ((Region2.value (V9 m ρ) c).trans (by rw [rows2, layer2, weight2, bias2, theRow_shapeCast]; rfl))

end Cert.Sgc

end
-- ==== Proof.RefValue.lean ====
/-
  The reference, read as the network.

  The reference's generated read-back gives every host operation as a stage, a function of the arguments. Its two rounds of
  propagation are the same chain of operations as ours, on the input rows and on the first layer's output: each is
  `propagate` by unfolding, and is opened no further. Each dense layer is a `dot_general` with the transposed weight, the
  bias broadcast down the rows and — for the first two — a maximum with a zero splat; read at an entry `(p, q)` over the
  extended reals that is `Σ_k X[p, k] · W[q, k] + b[q]`, rectified or not: `dense`, `relu`.
-/
import proofs.«180884_j61538291417128_1_alg».proof.Proof.RefReadP
import proofs.«180884_j61538291417128_1_alg».proof.Proof.Spec
import proofs.«180884_j61538291417128_1_alg».proof.Proof.Gen.KernelIdeal
import Idealize.ShloMosaic.Lib.ValueIdx
import Idealize.ShloMosaic.PureOps.Ideal.Laws

set_option maxRecDepth 16384

noncomputable section

namespace Cert.Sgc.Ref

open Idealize.ShloMosaic Idealize.ShloMosaic.TcCoe Idealize.ShloMosaic.ValueIdx Idealize.SL.Sem Cert.ReferenceIdeal Cert.ReferenceIdeal.ReadP

/-! ## The two rounds of propagation -/

section Rounds

variable {F : FTy → Type} [FloatOps F]

/-- The first round: the stage before the first `dot_general` is `propagate` of the input rows over the edge table's rows. -/
theorem round1 (x0 : (⟨S100000x64, .f32⟩ : BufTy).Contents (Elt F)) (x1 : (⟨S2x1600000, .i32⟩ : BufTy).Contents (Elt F)) :
    val_main_v43 (F := F) x0 x1 = Cert.Sgc.propagate x0 (Cert.Sgc.endpoints0 x1) (Cert.Sgc.endpoints1 x1) := rfl

/-- The second round: the stage before the second `dot_general` is `propagate` of the first layer's output over the same rows. -/
theorem round2 (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64, .f32⟩ : BufTy).Contents (Elt F)) :
    val_main_v89 (F := F) x0 x1 x2 x3
      = Cert.Sgc.propagate (val_main_v49 (F := F) x0 x1 x2 x3) (Cert.Sgc.endpoints0 x1) (Cert.Sgc.endpoints1 x1) := rfl

end Rounds

/-! ## The three dense layers, over the extended reals -/

/-- The first layer: rectified dense layer of the first round's output. -/
theorem layer1 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    val_main_v49 (F := Ideal) x0 x1 x2 x3 = Cert.Sgc.relu (Cert.Sgc.dense (val_main_v43 (F := Ideal) x0 x1) x2 x3) := by
  funext i
  rw [val_main_v49_apply, val_main_v48_apply, val_main_v45_apply, val_main_v47_apply, val_main_v46_apply, val_main_call1_v0_apply, val_main_call1_cst_apply]
  unfold Cert.Sgc.relu Cert.Sgc.dense
  show max ((∑ k : Fin 64, val_main_v43 (F := Ideal) x0 x1 (lidx_main_v45 i k) * val_main_v44 (F := Ideal) x2 (ridx_main_v45 i k))
      + x3 (idx_main_v46 (idx_main_v47 i))) (Ideal.ofBits .f32 0x00000000#32) = _
  refine congrArg₂ max (congrArg₂ (· + ·) (Finset.sum_congr rfl fun k _ => ?_) ?_) rfl
  · rw [val_main_v44_apply]
    exact congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  · exact congrArg x3 (funext fun a => Fin.ext (by match a with | ⟨0, _⟩ => rfl))

/-- The second layer: rectified dense layer of the second round's output. -/
theorem layer2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v95 (F := Ideal) x0 x1 x2 x3 x4 x5 = Cert.Sgc.relu (Cert.Sgc.dense (val_main_v89 (F := Ideal) x0 x1 x2 x3) x4 x5) := by
  funext i
  rw [val_main_v95_apply, val_main_v94_apply, val_main_v91_apply, val_main_v93_apply, val_main_v92_apply, val_main_call3_v0_apply, val_main_call3_cst_apply]
  unfold Cert.Sgc.relu Cert.Sgc.dense
  show max ((∑ k : Fin 64, val_main_v89 (F := Ideal) x0 x1 x2 x3 (lidx_main_v91 i k) * val_main_v90 (F := Ideal) x4 (ridx_main_v91 i k))
      + x5 (idx_main_v92 (idx_main_v93 i))) (Ideal.ofBits .f32 0x00000000#32) = _
  refine congrArg₂ max (congrArg₂ (· + ·) (Finset.sum_congr rfl fun k _ => ?_) ?_) rfl
  · rw [val_main_v90_apply]
    exact congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  · exact congrArg x5 (funext fun a => Fin.ext (by match a with | ⟨0, _⟩ => rfl))

/-- The third layer: dense layer (16 outputs, not rectified) of the second layer's output. -/
theorem layer3 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S16x64, .f32⟩ : BufTy).Contents (Elt Ideal)) (x7 : (⟨S16, .f32⟩ : BufTy).Contents (Elt Ideal)) :
    val_main_v100 (F := Ideal) x0 x1 x2 x3 x4 x5 x6 x7 = Cert.Sgc.dense (val_main_v95 (F := Ideal) x0 x1 x2 x3 x4 x5) x6 x7 := by
  funext i
  rw [val_main_v100_apply, val_main_v97_apply, val_main_v99_apply, val_main_v98_apply]
  unfold Cert.Sgc.dense
  show (∑ k : Fin 64, val_main_v95 (F := Ideal) x0 x1 x2 x3 x4 x5 (lidx_main_v97 i k) * val_main_v96 (F := Ideal) x6 (ridx_main_v97 i k))
      + x7 (idx_main_v98 (idx_main_v99 i)) = _
  refine congrArg₂ (· + ·) (Finset.sum_congr rfl fun k _ => ?_) ?_
  · rw [val_main_v96_apply]
    exact congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  · exact congrArg x7 (funext fun a => Fin.ext (by match a with | ⟨0, _⟩ => rfl))

/-! ## The reference's result is the network of its arguments -/

theorem value (m : (ℓ : Loc nD τ sig) → Buf (Elt Ideal) ℓ) (c : Dev nD) :
    Cert.ReferenceIdeal.ValueP.res_main_v100 (F := Ideal) m c
      = Cert.Sgc.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [val_main_v100_eq, layer3, layer2, round2, layer1, round1]
  rfl

end Cert.Sgc.Ref

end
-- ==== Proof.lean ====
/-
  A two-layer simplified graph convolution with a final linear layer, on 100000 nodes, 1600000 edges, 64 features, 16 classes:

      out = dense₃ (relu (dense₂ (propagate (relu (dense₁ (propagate x))))))

  where `propagate` is one round of symmetric-normalised message passing over the edges with self loops, and
  `denseₖ X = X · Wₖᵀ + bₖ`. The kernel program keeps the two rounds of propagation on the host, exactly as the reference writes
  them, and computes each dense layer (with its rectifier) in a kernel tiled over blocks of 10000 rows, the operands narrowed to
  bf16 on the way into the matrix unit; the reference computes each dense layer by one `dot_general` with the transposed weight.

  Over the extended reals the narrowing is the identity, so both programs compute, entry by entry,
  `Σ_k X[p, k] · W[q, k] + b[q]` (rectified or not) of the SAME operands: the claim needs no algebraic law beyond reading both
  sums at an entry, and the precondition is never opened. The rounds of propagation are the same function of equal operands on
  both sides and are never unfolded.

  The frames of the two kernel programs are the generated ones. The reference's frame is its run with the result dropped. The
  idealization changed no operation, so there is nothing to preserve. The algebraic claim puts side by side the kernel
  program's run with its result buffer named (the launch over the generated segments, once more) read back through the
  fold of its segments to the network of the arguments, and the reference's run read as the same network.
-/
import proofs.«180884_j61538291417128_1_alg».proof.Defs
import proofs.«180884_j61538291417128_1_alg».proof.Proof.Gen.Kernel
import proofs.«180884_j61538291417128_1_alg».proof.Proof.Gen.Kernel.Frame
import proofs.«180884_j61538291417128_1_alg».proof.Proof.Gen.KernelIdeal
import proofs.«180884_j61538291417128_1_alg».proof.Proof.Gen.KernelIdeal.Frame
import proofs.«180884_j61538291417128_1_alg».proof.Proof.Gen.ReferenceIdeal
import proofs.«180884_j61538291417128_1_alg».proof.Proof.Gen.Pre_finite_inputs
import proofs.«180884_j61538291417128_1_alg».proof.Proof.KernelRun
import proofs.«180884_j61538291417128_1_alg».proof.Proof.Fold
import proofs.«180884_j61538291417128_1_alg».proof.Proof.RefRunP
import proofs.«180884_j61538291417128_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.Sgc.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Sgc.kernel_value m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.Sgc.Ref.value, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
